-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_
  bcast_S_S10x41 : S_.BroadcastsInDim S10x41 (![] : Fin 0 → Fin S10x41.rank)
  reducesTo_S10x41_S_d0_1 : S10x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg4 : FVec F S41 .f32) (main_v13 : IVec S_ 1) (main_v16 : IVec S10x41 1) : IVec S_ 1 :=
  let main_c_5 : IVec S_ 1 := constantI S_ 1 1#1
  let main_v17 : IVec S_ 1 := (fun x v => Host.reduce IntOp.andi x v reducesTo_S10x41_S_d0_1 h_S_) main_v16 main_c_5
  let main_v18 : IVec S_ 1 := andi main_v13 main_v17
  let main_v19 : FVec F S41 .f32 := Host.absf main_arg4
  let main_cst_6 : FVec F S_ .f32 := constant S_ .f32 0x7F800000#32
  let main_v20 : FVec F S41 .f32 := broadcastInDim S41 ![] bcast_S_S41 main_cst_6
  let main_v21 : IVec S41 1 := cmpf .olt main_v19 main_v20
  let main_c_7 : IVec S_ 1 := constantI S_ 1 1#1
  let main_v22 : IVec S_ 1 := (fun x v => Host.reduce IntOp.andi x v reducesTo_S41_S_d0 h_S_) main_v21 main_c_7
  let main_v23 : IVec S_ 1 := andi main_v18 main_v22
  main_v23

def fn {F : FTy → Type} [FloatOps F] (main_arg0 : FVec F S100000x512 .f32) (main_arg1 : FVec F S512x10 .f32) (main_arg2 : FVec F S10 .f32) (main_arg3 : FVec F S10x41 .f32) (main_arg4 : FVec F S41 .f32) (main_arg5 : IVec S3200000 32) (main_arg6 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x10 .f32 := Host.absf main_arg1
  let main_cst_0 : FVec F S_ .f32 := constant S_ .f32 0x7F800000#32
  let main_v5 : FVec F S512x10 .f32 := broadcastInDim S512x10 ![] bcast_S_S512x10 main_cst_0
  let main_v6 : IVec S512x10 1 := cmpf .olt main_v4 main_v5
  let main_c_1 : IVec S_ 1 := constantI S_ 1 1#1
  let main_v7 : IVec S_ 1 := (fun x v => Host.reduce IntOp.andi x v reducesTo_S512x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x41 .f32 := Host.absf main_arg3
  let main_cst_4 : FVec F S_ .f32 := constant S_ .f32 0x7F800000#32
  let main_v15 : FVec F S10x41 .f32 := broadcastInDim S10x41 ![] bcast_S_S10x41 main_cst_4
  let main_v16 : IVec S10x41 1 := cmpf .olt main_v14 main_v15
  fn_part1 (F := F) main_arg4 main_v13 main_v16
-- ==== Kernel.lean ====
abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S2000x512 : Shape := ⟨2, ![2000, 512]⟩
abbrev S2000x10 : Shape := ⟨2, ![2000, 10]⟩
abbrev S3300000x10 : Shape := ⟨2, ![3300000, 10]⟩
abbrev S1x10 : Shape := ⟨2, ![1, 10]⟩
abbrev S100000x41 : Shape := ⟨2, ![100000, 41]⟩
abbrev S2000x41 : Shape := ⟨2, ![2000, 41]⟩
abbrev S3300000x41 : Shape := ⟨2, ![3300000, 41]⟩
abbrev S1x41 : Shape := ⟨2, ![1, 41]⟩
abbrev S100000x1 : Shape := ⟨2, ![100000, 1]⟩

abbrev nBuf : Space → Nat
  | .hbm => 101
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x10, .f32⟩
  | .hbm, ⟨2, _⟩ => ⟨S10, .f32⟩
  | .hbm, ⟨3, _⟩ => ⟨S10x41, .f32⟩
  | .hbm, ⟨4, _⟩ => ⟨S41, .f32⟩
  | .hbm, ⟨5, _⟩ => ⟨S3200000, .i32⟩
  | .hbm, ⟨6, _⟩ => ⟨S3200000, .i32⟩
  | .hbm, ⟨7, _⟩ => ⟨S100000, .i32⟩
  | .hbm, ⟨8, _⟩ => ⟨S3300000, .i32⟩
  | .hbm, ⟨9, _⟩ => ⟨S3300000, .i32⟩
  | .hbm, ⟨10, _⟩ => ⟨S_, .f32⟩
  | .hbm, ⟨11, _⟩ => ⟨S3300000, .f32⟩
  | .hbm, ⟨12, _⟩ => ⟨S_, .f32⟩
  | .hbm, ⟨13, _⟩ => ⟨S100000, .f32⟩
  | .hbm, ⟨14, _⟩ => ⟨S3300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x10, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x10, .f32⟩
  | .hbm, ⟨53, _⟩ => ⟨S3300000x1, .f32⟩
  | .hbm, ⟨54, _⟩ => ⟨S3300000x10, .f32⟩
  | .hbm, ⟨55, _⟩ => ⟨S3300000x10, .f32⟩
  | .hbm, ⟨56, _⟩ => ⟨S_, .f32⟩
  | .hbm, ⟨57, _⟩ => ⟨S100000x10, .f32⟩
  | .hbm, ⟨58, _⟩ => ⟨S3300000x1, .i32⟩
  | .hbm, ⟨59, _⟩ => ⟨S100000x10, .f32⟩
  | .hbm, ⟨60, _⟩ => ⟨S1x10, .f32⟩
  | .hbm, ⟨61, _⟩ => ⟨S100000x10, .f32⟩
  | .hbm, ⟨62, _⟩ => ⟨S100000x10, .f32⟩
  | .hbm, ⟨63, _⟩ => ⟨S_, .f32⟩
  | .hbm, ⟨64, _⟩ => ⟨S100000x10, .f32⟩
  | .hbm, ⟨65, _⟩ => ⟨S100000x10, .f32⟩
  | .hbm, ⟨66, _⟩ => ⟨S100000x41, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x41, .f32⟩
  | .hbm, ⟨76, _⟩ => ⟨S3300000x1, .f32⟩
  | .hbm, ⟨77, _⟩ => ⟨S3300000x41, .f32⟩
  | .hbm, ⟨78, _⟩ => ⟨S3300000x41, .f32⟩
  | .hbm, ⟨79, _⟩ => ⟨S_, .f32⟩
  | .hbm, ⟨80, _⟩ => ⟨S100000x41, .f32⟩
  | .hbm, ⟨81, _⟩ => ⟨S3300000x1, .i32⟩
  | .hbm, ⟨82, _⟩ => ⟨S100000x41, .f32⟩
  | .hbm, ⟨83, _⟩ => ⟨S1x41, .f32⟩
  | .hbm, ⟨84, _⟩ => ⟨S100000x41, .f32⟩
  | .hbm, ⟨85, _⟩ => ⟨S100000x41, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x41, .f32⟩
  | .hbm, ⟨93, _⟩ => ⟨S100000x41, .f32⟩
  | .hbm, ⟨94, _⟩ => ⟨S100000x41, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S100000x41, .f32⟩
  | .hbm, ⟨100, _⟩ => ⟨S100000x41, .f32⟩
  | .local _ .vmem, ⟨0, _⟩ => ⟨S2000x512, .f32⟩
  | .local _ .vmem, ⟨1, _⟩ => ⟨S2000x512, .f32⟩
  | .local _ .vmem, ⟨2, _⟩ => ⟨S512x10, .f32⟩
  | .local _ .vmem, ⟨3, _⟩ => ⟨S2000x10, .f32⟩
  | .local _ .vmem, ⟨4, _⟩ => ⟨S2000x10, .f32⟩
  | .local _ .vmem, ⟨5, _⟩ => ⟨S2000x10, .f32⟩
  | .local _ .vmem, ⟨6, _⟩ => ⟨S2000x10, .f32⟩
  | .local _ .vmem, ⟨7, _⟩ => ⟨S10x41, .f32⟩
  | .local _ .vmem, ⟨8, _⟩ => ⟨S2000x41, .f32⟩
  | .local _ .vmem, ⟨9, _⟩ => ⟨S2000x41, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v61 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x41 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x41 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x10_S512x10_0_0 : ∀ a, (![0, 0] : Fin 2 → Nat) a + S512x10.size a ≤ S512x10.size a
  h_S512x10 : 0 < S512x10.numel
  inb_S2000x10_S2000x10_0_0 : ∀ a, (![0, 0] : Fin 2 → Nat) a + S2000x10.size a ≤ S2000x10.size a
  h_S2000x10 : 0 < S2000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  shapeCasts_S2000x10_S2000x10 : S2000x10.ShapeCasts S2000x10
  inb_S10x41_S10x41_0_0 : ∀ a, (![0, 0] : Fin 2 → Nat) a + S10x41.size a ≤ S10x41.size a
  h_S10x41 : 0 < S10x41.numel
  inb_S2000x41_S2000x41_0_0 : ∀ a, (![0, 0] : Fin 2 → Nat) a + S2000x41.size a ≤ S2000x41.size a
  h_S2000x41 : 0 < S2000x41.numel
  bcast_S3300000x1_S3300000x41_0_1 : S3300000x1.BroadcastsInDim S3300000x41 (![0, 1] : Fin 2 → Fin S3300000x41.rank)
  bcast_S_S100000x41 : S_.BroadcastsInDim S100000x41 (![] : Fin 0 → Fin S100000x41.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  reducesTo_S100000x41_S100000_d1 : S100000x41.ReducesTo [1] S100000
  h_S_ : 0 < S_.numel
  bcast_S100000_S100000x1_0 : S100000.BroadcastsInDim S100000x1 (![0] : Fin 1 → Fin S100000x1.rank)
  bcast_S100000x1_S100000x41_0_1 : S100000x1.BroadcastsInDim S100000x41 (![0, 1] : Fin 2 → Fin S100000x41.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x10_S2000x10_1_0_0_1_n_n_wf : DotDims.WF S2000x512 S512x10 S2000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S2000x10_S10x41_S2000x41_1_0_0_1_n_n_wf : DotDims.WF S2000x10 S10x41 S2000x41 [1] [0] [0] [1] [] []
  gather_S100000x41_S3300000x1_S3300000x41_1_0_n_n_0_1_141_wf : GatherDims.WF S100000x41 S3300000x1 S3300000x41 [1] [0] [] [0] [] 1 ![1, 41]
  scatter_S100000x41_S3300000x1_S3300000x41_1_0_0_1_wf : ScatterDims.WF S100000x41 S3300000x1 S3300000x41 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x10.size a ≤ S512x10.size a
  hwx0_1 : ∀ i : grid0.Coords, EltTy.bits .f32 = 32 ∨ (Rect.block (s := S512x10) S512x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x10.size a ≤ S100000x10.size a
  hwx0_2 : ∀ i : grid0.Coords, EltTy.bits .f32 = 32 ∨ (Rect.block (s := S100000x10) S2000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x10.size a ≤ S100000x10.size a
  hwx1_0 : ∀ i : grid1.Coords, EltTy.bits .f32 = 32 ∨ (Rect.block (s := S100000x10) S2000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x41.size a ≤ S10x41.size a
  hwx1_1 : ∀ i : grid1.Coords, EltTy.bits .f32 = 32 ∨ (Rect.block (s := S10x41) S10x41.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x41.size a ≤ S100000x41.size a
  hwx1_2 : ∀ i : grid1.Coords, EltTy.bits .f32 = 32 ∨ (Rect.block (s := S100000x41) S2000x41.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x10_S2000x10_1_0_0_1_n_n : DotDims S2000x512 S512x10 S2000x10 where
  lhsContracting := [1]
  rhsContracting := [0]
  lhsNonContracting := [0]
  rhsNonContracting := [1]
  lhsBatch := []
  rhsBatch := []
  wf := dot_S2000x512_S512x10_S2000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S2000x10_S10x41_S2000x41_1_0_0_1_n_n : DotDims S2000x10 S10x41 S2000x41 where
  lhsContracting := [1]
  rhsContracting := [0]
  lhsNonContracting := [0]
  rhsNonContracting := [1]
  lhsBatch := []
  rhsBatch := []
  wf := dot_S2000x10_S10x41_S2000x41_1_0_0_1_n_n_wf
def gather_S100000x41_S3300000x1_S3300000x41_1_0_n_n_0_1_141 : GatherDims S100000x41 S3300000x1 S3300000x41 where
  offsetDims := [1]
  collapsedSliceDims := [0]
  operandBatchingDims := []
  startIndicesBatchingDims := []
  startIndexMap := [0]
  indexVectorDim := 1
  sliceSizes := ![1, 41]
  wf := gather_S100000x41_S3300000x1_S3300000x41_1_0_n_n_0_1_141_wf
def scatter_S100000x41_S3300000x1_S3300000x41_1_0_0_1 : ScatterDims S100000x41 S3300000x1 S3300000x41 where
  updateWindowDims := [1]
  insertedWindowDims := [0]
  scatterDimsToOperandDims := [0]
  indexVectorDim := 1
  wf := scatter_S100000x41_S3300000x1_S3300000x41_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10x41.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x41.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S3300000x10 : Shape := ⟨2, ![3300000, 10]⟩
abbrev S1x10 : Shape := ⟨2, ![1, 10]⟩
abbrev S100000x41 : Shape := ⟨2, ![100000, 41]⟩
abbrev S3300000x41 : Shape := ⟨2, ![3300000, 41]⟩
abbrev S1x41 : Shape := ⟨2, ![1, 41]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S512x10, .f32⟩
  | 2 => ⟨S10, .f32⟩
  | 3 => ⟨S10x41, .f32⟩
  | 4 => ⟨S41, .f32⟩
  | 5 => ⟨S3200000, .i32⟩
  | 6 => ⟨S3200000, .i32⟩
  | 7 => ⟨S100000, .i32⟩
  | 8 => ⟨S3300000, .i32⟩
  | 9 => ⟨S3300000, .i32⟩
  | 10 => ⟨S_, .f32⟩
  | 11 => ⟨S3300000, .f32⟩
  | 12 => ⟨S_, .f32⟩
  | 13 => ⟨S100000, .f32⟩
  | 14 => ⟨S3300000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S100000x10, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000x10, .f32⟩
  | 53 => ⟨S3300000x1, .f32⟩
  | 54 => ⟨S3300000x10, .f32⟩
  | 55 => ⟨S3300000x10, .f32⟩
  | 56 => ⟨S_, .f32⟩
  | 57 => ⟨S100000x10, .f32⟩
  | 58 => ⟨S3300000x1, .i32⟩
  | 59 => ⟨S100000x10, .f32⟩
  | 60 => ⟨S1x10, .f32⟩
  | 61 => ⟨S100000x10, .f32⟩
  | 62 => ⟨S100000x10, .f32⟩
  | 63 => ⟨S_, .f32⟩
  | 64 => ⟨S100000x10, .f32⟩
  | 65 => ⟨S100000x10, .f32⟩
  | 66 => ⟨S100000, .i32⟩
  | 67 => ⟨S3300000, .i32⟩
  | 68 => ⟨S3300000, .i32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S100000x41, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x41, .f32⟩
  | 112 => ⟨S3300000x1, .f32⟩
  | 113 => ⟨S3300000x41, .f32⟩
  | 114 => ⟨S3300000x41, .f32⟩
  | 115 => ⟨S_, .f32⟩
  | 116 => ⟨S100000x41, .f32⟩
  | 117 => ⟨S3300000x1, .i32⟩
  | 118 => ⟨S100000x41, .f32⟩
  | 119 => ⟨S1x41, .f32⟩
  | 120 => ⟨S100000x41, .f32⟩
  | 121 => ⟨S100000x41, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x41, .f32⟩
  | 1 => ⟨S100000x41, .f32⟩
  | 2 => ⟨S100000x41, .f32⟩
  | 3 => ⟨S_, .f32⟩
  | 4 => ⟨S100000, .f32⟩
  | 5 => ⟨S100000x1, .f32⟩
  | 6 => ⟨S100000x1, .f32⟩
  | 7 => ⟨S100000x41, .f32⟩
  | 8 => ⟨S100000x41, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_19 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v87 : Ref sig .tc := ⟨.hbm, 136, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S3300000x1_S3300000x41_0_1 : S3300000x1.BroadcastsInDim S3300000x41 (![0, 1] : Fin 2 → Fin S3300000x41.rank)
  bcast_S_S100000x41 : S_.BroadcastsInDim S100000x41 (![] : Fin 0 → Fin S100000x41.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  reducesTo_S100000x41_S100000_d1 : S100000x41.ReducesTo [1] S100000
  h_S_ : 0 < S_.numel
  bcast_S100000_S100000x1_0 : S100000.BroadcastsInDim S100000x1 (![0] : Fin 1 → Fin S100000x1.rank)
  bcast_S100000x1_S100000x41_0_1 : S100000x1.BroadcastsInDim S100000x41 (![0, 1] : Fin 2 → Fin S100000x41.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x10_S100000x10_1_0_0_1_n_n_wf : DotDims.WF S100000x512 S512x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S100000x10_S10x41_S100000x41_1_0_0_1_n_n_wf : DotDims.WF S100000x10 S10x41 S100000x41 [1] [0] [0] [1] [] []
  gather_S100000x41_S3300000x1_S3300000x41_1_0_n_n_0_1_141_wf : GatherDims.WF S100000x41 S3300000x1 S3300000x41 [1] [0] [] [0] [] 1 ![1, 41]
  scatter_S100000x41_S3300000x1_S3300000x41_1_0_0_1_wf : ScatterDims.WF S100000x41 S3300000x1 S3300000x41 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x10_S100000x10_1_0_0_1_n_n : DotDims S100000x512 S512x10 S100000x10 where
  lhsContracting := [1]
  rhsContracting := [0]
  lhsNonContracting := [0]
  rhsNonContracting := [1]
  lhsBatch := []
  rhsBatch := []
  wf := dot_S100000x512_S512x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S100000x10_S10x41_S100000x41_1_0_0_1_n_n : DotDims S100000x10 S10x41 S100000x41 where
  lhsContracting := [1]
  rhsContracting := [0]
  lhsNonContracting := [0]
  rhsNonContracting := [1]
  lhsBatch := []
  rhsBatch := []
  wf := dot_S100000x10_S10x41_S100000x41_1_0_0_1_n_n_wf
def gather_S100000x41_S3300000x1_S3300000x41_1_0_n_n_0_1_141 : GatherDims S100000x41 S3300000x1 S3300000x41 where
  offsetDims := [1]
  collapsedSliceDims := [0]
  operandBatchingDims := []
  startIndicesBatchingDims := []
  startIndexMap := [0]
  indexVectorDim := 1
  sliceSizes := ![1, 41]
  wf := gather_S100000x41_S3300000x1_S3300000x41_1_0_n_n_0_1_141_wf
def scatter_S100000x41_S3300000x1_S3300000x41_1_0_0_1 : ScatterDims S100000x41 S3300000x1 S3300000x41 where
  updateWindowDims := [1]
  insertedWindowDims := [0]
  scatterDimsToOperandDims := [0]
  indexVectorDim := 1
  wf := scatter_S100000x41_S3300000x1_S3300000x41_1_0_0_1_wf

class Facts : Prop extends Facts₀ where

variable [Facts]
-- ==== Proof.Gcn.lean ====
/-
  The graph convolution both programs compute, written once as functions of whole arrays.

  With N = 100000 nodes and E = 3200000 edges, the edge list (src, dst) is extended by one self loop per node
  (`withLoops`); the in-degree of node n counts the extended edges that end at n (`degree`, a scatter-add of ones),
  its inverse square root is taken where the degree is positive and 0 elsewhere (`invSqrtDegree`), and edge e gets the
  weight  dinv[src e] · dinv[dst e]  (`edgeWeight`; a negative index is first wrapped by N, as jnp indexing does).
  One propagation step sends row src e of a feature matrix, scaled by the edge's weight, to row dst e and adds up what
  arrives (`propagate10`, `propagate41`: gather, scale, scatter-add). The network is
      logSoftmax ( propagate (relu (propagate (x · W1) + b1) · W2) + b2 ),
  the two dense products `x · W1` and `h · W2` being parameters here (`mm1`, `mm2`): one program computes them as a host
  `dot_general`, the other block by block on the matrix unit, and the value proof shows those agree at the exact
  values. Every other operation is spelled as both printed programs spell it, so that each program's result is this
  term by unfolding.
-/
import proofs.«137775_j37495064494211_1_alg».proof.Proof.Gen.KernelIdeal

noncomputable section

namespace Cert.KernelIdeal.Gcn

open Idealize.ShloMosaic Cert.KernelIdeal Cert.KernelIdeal.Gen

variable {F : FTy → Type} [FloatOps F]

/-- An endpoint list with the N self loops appended: `concat (e, arange N)`. -/
def withLoops (e : IVec S3200000 32) : IVec S3300000 32 :=
  concatenate S3300000 0 [⟨S3200000, e⟩, ⟨S100000, iotaInDim S100000 32 0⟩] concatenates_S3200000_S100000_S3300000_d0

/-- jnp's reading of a possibly negative index: `i < 0 ? i + N : i`. -/
def wrapIdx (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A per-edge list as a column (one entry per row), the form gather and scatter take their indices in. -/
def asColumn {α : Type} (v : S3300000.Idx → α) : S3300000x1.Idx → α :=
  broadcastInDim S3300000x1 ![0] bcast_S3300000_S3300000x1_0 v

/-- deg n = the number of extended edges whose destination is n. -/
def degree (d : IVec S3300000 32) : FVec F S100000 .f32 :=
  Host.scatterAdd scatter_S100000_S3300000x1_S3300000_n_0_0_1
    (broadcastInDim S100000 ![] bcast_S_S100000 (constant S_ .f32 0x00000000#32)) (asColumn d)
    (broadcastInDim S3300000 ![] bcast_S_S3300000 (constant S_ .f32 0x3F800000#32))

/-- dinv n = deg n ^ (-1/2) where deg n > 0, and 0 elsewhere. -/
def invSqrtDegree (d : IVec S3300000 32) : FVec F S100000 .f32 :=
  select (cmpf .ogt (degree (F := F) d) (broadcastInDim S100000 ![] bcast_S_S100000 (constant S_ .f32 0x00000000#32)))
    (Host.rsqrt (degree d)) (broadcastInDim S100000 ![] bcast_S_S100000 (id (constant S_ .f32 0x00000000#32)))

/-- The symmetric normalisation's weight of edge e: dinv[src e] · dinv[dst e]. -/
def edgeWeight (s d : IVec S3300000 32) : FVec F S3300000 .f32 :=
  mulf (Host.gather gather_S100000_S3300000x1_S3300000_n_0_n_n_0_1_1 (invSqrtDegree (F := F) d) (asColumn (wrapIdx s)))
    (Host.gather gather_S100000_S3300000x1_S3300000_n_0_n_n_0_1_1 (invSqrtDegree (F := F) d) (asColumn (wrapIdx d)))

/-- One propagation step on 10 features: out[dst e] += h[src e] · w e, from zero. -/
def propagate10 (h : FVec F S100000x10 .f32) (s d : IVec S3300000 32) (w : FVec F S3300000 .f32) : FVec F S100000x10 .f32 :=
  Host.scatterAdd scatter_S100000x10_S3300000x1_S3300000x10_1_0_0_1
    (broadcastInDim S100000x10 ![] bcast_S_S100000x10 (constant S_ .f32 0x00000000#32)) (asColumn d)
    (mulf (Host.gather gather_S100000x10_S3300000x1_S3300000x10_1_0_n_n_0_1_110 h (asColumn (wrapIdx s)))
      (broadcastInDim S3300000x10 ![0, 1] bcast_S3300000x1_S3300000x10_0_1 (asColumn w)))

/-- The first layer after its dense product: relu (propagate h + b1). -/
def hiddenLayer (h : FVec F S100000x10 .f32) (b : FVec F S10 .f32) (s d : IVec S3300000 32) (w : FVec F S3300000 .f32) :
    FVec F S100000x10 .f32 :=
  maximumf (addf (propagate10 h s d w)
      (broadcastInDim S100000x10 ![0, 1] bcast_S1x10_S100000x10_0_1 (broadcastInDim S1x10 ![1] bcast_S10_S1x10_1 b)))
    (broadcastInDim S100000x10 ![] bcast_S_S100000x10 (constant S_ .f32 0x00000000#32))

/-- One propagation step on 41 features. -/
def propagate41 (h : FVec F S100000x41 .f32) (s d : IVec S3300000 32) (w : FVec F S3300000 .f32) : FVec F S100000x41 .f32 :=
  Host.scatterAdd scatter_S100000x41_S3300000x1_S3300000x41_1_0_0_1
    (broadcastInDim S100000x41 ![] bcast_S_S100000x41 (constant S_ .f32 0x00000000#32)) (asColumn d)
    (mulf (Host.gather gather_S100000x41_S3300000x1_S3300000x41_1_0_n_n_0_1_141 h (asColumn (wrapIdx s)))
      (broadcastInDim S3300000x41 ![0, 1] bcast_S3300000x1_S3300000x41_0_1 (asColumn w)))

/-- The second layer after its dense product: propagate h + b2. -/
def logits (h : FVec F S100000x41 .f32) (b : FVec F S41 .f32) (s d : IVec S3300000 32) (w : FVec F S3300000 .f32) :
    FVec F S100000x41 .f32 :=
  addf (propagate41 h s d w)
    (broadcastInDim S100000x41 ![0, 1] bcast_S1x41_S100000x41_0_1 (broadcastInDim S1x41 ![1] bcast_S41_S1x41_1 b))

/-- A row minus its maximum (the maximum taken from -inf). -/
def shiftByRowMax (z : FVec F S100000x41 .f32) : FVec F S100000x41 .f32 :=
  subf z (broadcastInDim S100000x41 ![0, 1] bcast_S100000x1_S100000x41_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x41_S100000_d1 h_S_))))

/-- log softmax along a row: (z - max) - log Σ exp (z - max). -/
def logSoftmax (z : FVec F S100000x41 .f32) : FVec F S100000x41 .f32 :=
  subf (shiftByRowMax z) (broadcastInDim S100000x41 ![0, 1] bcast_S100000x1_S100000x41_0_1
    (Host.log (broadcastInDim S100000x1 ![0] bcast_S100000_S100000x1_0
      (Host.reduceAdd (Host.exp (shiftByRowMax z)) (constant S_ .f32 0x00000000#32) reducesTo_S100000x41_S100000_d1 h_S_))))

/-- The whole network over its two dense products. -/
def network (mm1 : FVec F S100000x512 .f32 → FVec F S512x10 .f32 → FVec F S100000x10 .f32)
    (mm2 : FVec F S100000x10 .f32 → FVec F S10x41 .f32 → FVec F S100000x41 .f32)
    (x : FVec F S100000x512 .f32) (W1 : FVec F S512x10 .f32) (b1 : FVec F S10 .f32) (W2 : FVec F S10x41 .f32)
    (b2 : FVec F S41 .f32) (src dst : IVec S3200000 32) : FVec F S100000x41 .f32 :=
  logSoftmax (logits
    (mm2 (hiddenLayer (mm1 x W1) b1 (withLoops src) (withLoops dst) (edgeWeight (withLoops src) (withLoops dst))) W2)
    b2 (withLoops src) (withLoops dst) (edgeWeight (withLoops src) (withLoops dst)))

/-- The dimension numbers of a plain rows × inner by inner × columns product, at the first layer's whole-array
    extents: the left operand's axis 1 contracted with the right operand's axis 0. -/
def rowsByW1 : DotDims S100000x512 S512x10 S100000x10 where
  lhsContracting := [1]
  rhsContracting := [0]
  lhsNonContracting := [0]
  rhsNonContracting := [1]
  lhsBatch := []
  rhsBatch := []
  wf := by decide

/-- The same at the second layer's extents. -/
def rowsByW2 : DotDims S100000x10 S10x41 S100000x41 where
  lhsContracting := [1]
  rhsContracting := [0]
  lhsNonContracting := [0]
  rhsNonContracting := [1]
  lhsBatch := []
  rhsBatch := []
  wf := by decide

/-- The first dense product as the host computes it. -/
def dense1 (x : FVec F S100000x512 .f32) (W : FVec F S512x10 .f32) : FVec F S100000x10 .f32 :=
  Host.dotGeneral rowsByW1 none x W

/-- The second dense product as the host computes it. -/
def dense2 (h : FVec F S100000x10 .f32) (W : FVec F S10x41 .f32) : FVec F S100000x41 .f32 :=
  Host.dotGeneral rowsByW2 none h W

end Cert.KernelIdeal.Gcn

end
-- ==== Proof.LibHostLine.lean ====
/-
  TWO GENERAL FACTS ABOUT A LINE OF HOST OPERATIONS.

  `after_split`: the buffers after a line of operations are the buffers after its tail, run from the buffers after its
  first n operations; a long line is read a stretch at a time through it.

  `ofBuf_toBuf`: an operation of a called function names its buffers by typed references, and moves contents to and
  from a buffer through the reference's type equation; contents sent to the buffer and read back are the contents.
  Rewriting with it removes every such pair from a composed term, whatever the reference and whatever the contents.
-/
import Idealize.ShloMosaic.Lib.StableHlo.Run
import Idealize.ShloMosaic.Lib.Pipeline.Frame

noncomputable section

namespace Cert.Lib.HostLine

open Idealize.ShloMosaic

variable {τ : Topo} {sig : RefSig} {Val : EltTy → Type}

/-- A line of operations run in two parts. -/
theorem after_split (n : Nat) (ops : List (HloOp τ sig Val)) (V : Valuation τ sig Val) :
    StableHlo.after ops V = StableHlo.after (ops.drop n) (StableHlo.after (ops.take n) V) := by
  rw [← StableHlo.after_append, List.take_append_drop]

/-- Contents sent to a typed reference's buffer and read back are the contents. -/
theorem ofBuf_toBuf {T : BufTy} (x : StableHlo.TRef sig T) (v : T.Contents Val) : x.ofBuf (x.toBuf v) = v := by
  obtain ⟨r, rfl, h2, h3⟩ := x
  rfl

end Cert.Lib.HostLine

end
-- ==== Proof.HostStretches.lean ====
/-
  The host operations of the kernel's program between its launches, read as the graph convolution's functions.

  The program's @main is three stretches of host operations around two matrix-unit launches. Each stretch is read here
  at an ARBITRARY contents `W` of the buffers on entry: what a buffer holds after the stretch is the stretch's operations
  composed, applied to what the buffers it reads held on entry. The first stretch builds the extended edge lists and the
  edge weights from the two index arguments; the second turns the first dense product into the hidden layer; the third
  turns the second dense product into the result. Buffers a stretch does not write are unchanged by it.
-/
import proofs.«137775_j37495064494211_1_alg».proof.Proof.Gcn
import proofs.«137775_j37495064494211_1_alg».proof.Proof.Gen.KernelIdeal.Launch
import proofs.«137775_j37495064494211_1_alg».proof.Proof.LibHostLine
import Idealize.ShloMosaic.Lib.StableHlo.Run

noncomputable section

namespace Cert.KernelIdeal.Gcn

open Idealize.ShloMosaic Idealize.ShloMosaic.TcCoe Idealize.SL.Sem Idealize.ShloMosaic.StableHlo
open Cert.KernelIdeal Cert.KernelIdeal.Gen Cert.Lib.HostLine

variable {F : FTy → Type} [FloatOps F]

/-! ## Before the first dense product: the edge lists with self loops, and the edge weights -/

/-- The buffers once every host operation before the first launch has run, from contents `W`. -/
abbrev beforeDense1 (W : Valuation τ sig (Elt F)) : Valuation τ sig (Elt F) :=
  StableHlo.after hostOps0_2 (StableHlo.after hostOps0_1 (StableHlo.after hostOps0 W))

theorem beforeDense1_src (W : Valuation τ sig (Elt F)) :
    beforeDense1 W (Proc.devRef .tc main_v1) = withLoops (W (Proc.devRef .tc main_arg5)) := by
  after_results
  rfl

theorem beforeDense1_dst (W : Valuation τ sig (Elt F)) :
    beforeDense1 W (Proc.devRef .tc main_v2) = withLoops (W (Proc.devRef .tc main_arg6)) := by
  after_results
  rfl

set_option maxHeartbeats 4000000 in
theorem beforeDense1_weight (W : Valuation τ sig (Elt F)) :
    beforeDense1 W (Proc.devRef .tc main_v25)
      = edgeWeight (withLoops (W (Proc.devRef .tc main_arg5))) (withLoops (W (Proc.devRef .tc main_arg6))) := by
  after_results_simp
  rfl

theorem beforeDense1_keeps_main_arg0 (W : Valuation τ sig (Elt F)) :
    beforeDense1 W (Proc.devRef .tc main_arg0) = W (Proc.devRef .tc main_arg0) := by
  after_results

theorem beforeDense1_keeps_main_arg1 (W : Valuation τ sig (Elt F)) :
    beforeDense1 W (Proc.devRef .tc main_arg1) = W (Proc.devRef .tc main_arg1) := by
  after_results

theorem beforeDense1_keeps_main_arg2 (W : Valuation τ sig (Elt F)) :
    beforeDense1 W (Proc.devRef .tc main_arg2) = W (Proc.devRef .tc main_arg2) := by
  after_results

theorem beforeDense1_keeps_main_arg3 (W : Valuation τ sig (Elt F)) :
    beforeDense1 W (Proc.devRef .tc main_arg3) = W (Proc.devRef .tc main_arg3) := by
  after_results

theorem beforeDense1_keeps_main_arg4 (W : Valuation τ sig (Elt F)) :
    beforeDense1 W (Proc.devRef .tc main_arg4) = W (Proc.devRef .tc main_arg4) := by
  after_results

/-! ## Between the two dense products: the hidden layer -/

/-- The buffers once the host operations between the two launches have run, from contents `W`. -/
abbrev betweenDense (W : Valuation τ sig (Elt F)) : Valuation τ sig (Elt F) :=
  StableHlo.after hostOps1_1 (StableHlo.after hostOps1 W)

set_option maxHeartbeats 4000000 in
theorem betweenDense_hidden (W : Valuation τ sig (Elt F)) :
    betweenDense W (Proc.devRef .tc main_v43)
      = hiddenLayer (W (Proc.devRef .tc main_v26)) (W (Proc.devRef .tc main_arg2)) (W (Proc.devRef .tc main_v1))
          (W (Proc.devRef .tc main_v2)) (W (Proc.devRef .tc main_v25)) := by
  after_results_simp
  rfl

theorem betweenDense_keeps_main_arg3 (W : Valuation τ sig (Elt F)) :
    betweenDense W (Proc.devRef .tc main_arg3) = W (Proc.devRef .tc main_arg3) := by
  after_results

theorem betweenDense_keeps_main_arg4 (W : Valuation τ sig (Elt F)) :
    betweenDense W (Proc.devRef .tc main_arg4) = W (Proc.devRef .tc main_arg4) := by
  after_results

theorem betweenDense_keeps_main_v1 (W : Valuation τ sig (Elt F)) :
    betweenDense W (Proc.devRef .tc main_v1) = W (Proc.devRef .tc main_v1) := by
  after_results

theorem betweenDense_keeps_main_v2 (W : Valuation τ sig (Elt F)) :
    betweenDense W (Proc.devRef .tc main_v2) = W (Proc.devRef .tc main_v2) := by
  after_results

theorem betweenDense_keeps_main_v25 (W : Valuation τ sig (Elt F)) :
    betweenDense W (Proc.devRef .tc main_v25) = W (Proc.devRef .tc main_v25) := by
  after_results

/-! ## After the second dense product: bias, then log softmax -/

/-- The buffers once the host operations after the second launch have run, from contents `W`. -/
abbrev afterDense2 (W : Valuation τ sig (Elt F)) : Valuation τ sig (Elt F) :=
  StableHlo.after hostOps2_1 (StableHlo.after hostOps2 W)

set_option maxHeartbeats 4000000 in
/-- Up to the call of log softmax: the second propagation and its bias. -/
theorem afterDense2_logits (W : Valuation τ sig (Elt F)) :
    StableHlo.after hostOps2 W (Proc.devRef .tc main_v60)
      = logits (W (Proc.devRef .tc main_v44)) (W (Proc.devRef .tc main_arg4)) (W (Proc.devRef .tc main_v1))
          (W (Proc.devRef .tc main_v2)) (W (Proc.devRef .tc main_v25)) := by
  after_results_simp
  rfl

set_option maxHeartbeats 4000000 in
/-- The called log softmax, of whatever its argument buffer holds. -/
theorem afterDense2_logSoftmax (W : Valuation τ sig (Elt F)) :
    StableHlo.after hostOps2_1 W (Proc.devRef .tc main_v61) = logSoftmax (W (Proc.devRef .tc main_v60)) := by
  after_results_simp
  simp only [ofBuf_toBuf]
  rfl

theorem afterDense2_result (W : Valuation τ sig (Elt F)) :
    afterDense2 W (Proc.devRef .tc main_v61)
      = logSoftmax (logits (W (Proc.devRef .tc main_v44)) (W (Proc.devRef .tc main_arg4)) (W (Proc.devRef .tc main_v1))
          (W (Proc.devRef .tc main_v2)) (W (Proc.devRef .tc main_v25))) :=
  (afterDense2_logSoftmax (StableHlo.after hostOps2 W)).trans (congrArg logSoftmax (afterDense2_logits W))

end Cert.KernelIdeal.Gcn

end
-- ==== Proof.LibPlainDot.lean ====
/-
  A PLAIN MATRIX PRODUCT READ AT AN ENTRY, at the exact values.

  For operands of shapes [n, k] and [k, m] and a result of shape [n, m], with dimension numbers that contract the left
  operand's axis 1 with the right operand's axis 0, keep the left operand's axis 0 and the right operand's axis 1, and
  have no batch axes (`IsPlain`), the operand indices at result entry (p, q) and contraction position κ are (p, κ) and
  (κ, q) (`lhsIdx_eq`, `rhsIdx_eq`). Hence, over the extended reals, both a matrix-unit product accumulated into zero
  (`matmul_zero_apply`) and a host dot_general (`dotGeneral_apply`) are, at (p, q),
      Σ κ < k,  lhs (p, κ) · rhs (κ, q),
  whatever the extents n, k, m are. A product computed block of rows by block of rows and the product of the whole
  arrays are compared entry by entry through this one form.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {n kk mm : Nat}

/-- The dimension numbers of a plain product [n, k] × [k, m] → [n, m]. -/
structure IsPlain (d : DotDims ⟨2, ![n, kk]⟩ ⟨2, ![kk, mm]⟩ ⟨2, ![n, mm]⟩) : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d : DotDims ⟨2, ![n, kk]⟩ ⟨2, ![kk, mm]⟩ ⟨2, ![n, mm]⟩}

/-- One axis is contracted. -/
theorem contr_rank (h : IsPlain d) : d.contr.rank = 1 := by
  rw [d.rank_contr, h.lhsContr]; rfl

/-- Its extent is the inner extent k. -/
theorem contr_size (h : IsPlain d) : d.contr.size ⟨0, by rw [contr_rank h]; exact Nat.one_pos⟩ = kk := by
  have e := d.size_contr 0 (by rw [h.lhsContr]; exact Nat.one_pos)
  rw [e, List.getElem_of_eq h.lhsContr]
  rfl

/-- A coordinate of a result index read at two spellings of one position. -/
private theorem val_congr {r : Nat} {sz : Fin r → Nat} (j : (a : Fin r) → Fin (sz a)) (p q : Nat) (hp : p < r) (hq : q < r)
    (e : p = q) : (j ⟨p, hp⟩).val = (j ⟨q, hq⟩).val := by subst e; rfl

/-- The left operand's row coordinate is the result's row coordinate. -/
theorem lhs_row (h : IsPlain d) (j : (⟨2, ![n, mm]⟩ : Shape).Idx) (k : d.contr.Idx) : (d.lhsIdx j k 0).val = (j 0).val := by
  unfold DotDims.lhsIdx
  rw [dif_neg (by rw [h.lhsBatch]; exact List.not_mem_nil), dif_pos (by rw [h.lhsNon]; exact List.mem_singleton.mpr rfl)]
  simp only [Fin.val_cast]
  exact val_congr j _ _ _ _ (by simp [h.lhsBatch, h.lhsNon])

/-- The left operand's inner coordinate is the contraction position. -/
theorem lhs_inner (h : IsPlain d) (j : (⟨2, ![n, mm]⟩ : Shape).Idx) (k : d.contr.Idx) :
    (d.lhsIdx j k 1).val = (k ⟨0, by rw [contr_rank h]; exact Nat.one_pos⟩).val :=
  d.lhsIdx_val_of_single h.lhsContr j k

/-- The right operand's inner coordinate is the contraction position. -/
theorem rhs_inner (h : IsPlain d) (j : (⟨2, ![n, mm]⟩ : Shape).Idx) (k : d.contr.Idx) :
    (d.rhsIdx j k 0).val = (k ⟨0, by rw [contr_rank h]; exact Nat.one_pos⟩).val :=
  d.rhsIdx_val_of_single h.rhsContr j k

/-- The right operand's column coordinate is the result's column coordinate. -/
theorem rhs_col (h : IsPlain d) (j : (⟨2, ![n, mm]⟩ : Shape).Idx) (k : d.contr.Idx) : (d.rhsIdx j k 1).val = (j 1).val := by
  unfold DotDims.rhsIdx
  rw [dif_neg (by rw [h.rhsBatch]; exact List.not_mem_nil), dif_pos (by rw [h.rhsNon]; exact List.mem_singleton.mpr rfl)]
  simp only [Fin.val_cast]
  exact val_congr j _ _ _ _ (by simp [h.lhsBatch, h.lhsNon, h.rhsNon])

/-- The contraction positions are the inner coordinates 0 … k-1. -/
def inner (h : IsPlain d) : d.contr.Idx ≃ Fin kk := contrEquiv1 d kk (contr_rank h) (contr_size h)

/-- At result entry (p, q) and inner coordinate κ the left operand is read at (p, κ). -/
theorem lhsIdx_eq (h : IsPlain d) (p : Fin n) (q : Fin mm) (κ : Fin kk) : d.lhsIdx (ix2 p q) ((inner h).symm κ) = ix2 p κ := by
  funext a
  apply Fin.ext
  match a with
  | ⟨0, _⟩ => exact lhs_row h _ _
  | ⟨1, _⟩ => exact (lhs_inner h _ _).trans (contrEquiv1_symm_val d kk (contr_rank h) (contr_size h) κ)

/-- At result entry (p, q) and inner coordinate κ the right operand is read at (κ, q). -/
theorem rhsIdx_eq (h : IsPlain d) (p : Fin n) (q : Fin mm) (κ : Fin kk) : d.rhsIdx (ix2 p q) ((inner h).symm κ) = ix2 κ q := by
  funext a
  apply Fin.ext
  match a with
  | ⟨0, _⟩ => exact (rhs_inner h _ _).trans (contrEquiv1_symm_val d kk (contr_rank h) (contr_size h) κ)
  | ⟨1, _⟩ => exact rhs_col h _ _

/-- A matrix-unit product accumulated into the zero splat, at entry (p, q): the sum over the inner coordinate. -/
theorem matmul_zero_apply {φ₁ φ₂ : FTy} (h : IsPlain d) (prec : Option ContractPrecision)
    (lhs : FVec Ideal ⟨2, ![n, kk]⟩ φ₁) (rhs : FVec Ideal ⟨2, ![kk, mm]⟩ φ₂) (p : Fin n) (q : Fin mm) :
    FloatOps.matmul d prec lhs rhs (constant ⟨2, ![n, mm]⟩ .f32 0x00000000#32) (ix2 p q)
      = ∑ κ : Fin kk, lhs (ix2 p κ) * rhs (ix2 κ q) := by
  rw [Ideal.matmul_constant_zero_apply, ← Equiv.sum_comp (inner h).symm]
  refine Finset.sum_congr rfl fun κ _ => ?_
  rw [lhsIdx_eq h p q κ, rhsIdx_eq h p q κ]

/-- A host dot_general, at entry (p, q): the same sum. -/
theorem dotGeneral_apply {φ₁ φ₂ : FTy} (h : IsPlain d) (prec : Option ContractPrecision) (sched : HostSchedule)
    (lhs : FVec Ideal ⟨2, ![n, kk]⟩ φ₁) (rhs : FVec Ideal ⟨2, ![kk, mm]⟩ φ₂) (p : Fin n) (q : Fin mm) :
    FloatOps.dotGeneral d prec sched lhs rhs (ix2 p q) = ∑ κ : Fin kk, lhs (ix2 p κ) * rhs (ix2 κ q) := by
  rw [Ideal.dotGeneral_apply, ← Equiv.sum_comp (inner h).symm]
  refine Finset.sum_congr rfl fun κ _ => ?_
  rw [lhsIdx_eq h p q κ, rhsIdx_eq h p q κ]

/-- A block stored and loaded whole starts at offset 0 on both axes. -/
theorem zero_offsets : (![0, 0] : Fin 2 → Nat) = fun _ => 0 :=
  funext fun a => match a with | ⟨0, _⟩ => rfl | ⟨1, _⟩ => rfl

end Cert.Lib.PlainDot

end
-- ==== Proof.Dense1ByBlocks.lean ====
/-
  The two dense products of the network, computed on the matrix unit a block of 2000 rows at a time, are the products
  of the whole arrays.

  Each launch runs over a grid of 50 points. At point t the operand's window holds rows 2000·t … 2000·t + 1999 of its
  array, the weights' window the whole weight matrix, and the body stores (block · weights) — a matrix-unit product into
  a zero accumulator, the operands first narrowed to bf16 (and, in the second launch, cast to their own shape), which at
  the exact values changes nothing — into the result's
  window, written back to rows 2000·t … of the result array. Entry (p, q) of that block is Σ κ x(2000·t + p, κ) · w(κ, q),
  which is entry (2000·t + p, q) of the whole product (the general lemma on plain products, used for the block's and
  for the whole array's dimension numbers). The 50 blocks tile the result array, so after the launch it holds the whole
  product.
-/
import proofs.«137775_j37495064494211_1_alg».proof.Proof.Gcn
import proofs.«137775_j37495064494211_1_alg».proof.Proof.LibPlainDot
import proofs.«137775_j37495064494211_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.PlainDot

/-! ## Launch 0: the first dense product, 2000 rows at a time -/

theorem block1_plain : IsPlain dot_S2000x512_S512x10_S2000x10_1_0_0_1_n_n := ⟨rfl, rfl, rfl, rfl, rfl, rfl⟩

theorem rowsByW1_plain : IsPlain rowsByW1 := ⟨rfl, rfl, rfl, rfl, rfl, rfl⟩

/-- The body's stored value at an entry: row p of the loaded block of rows against column q of the weights (the two
    changes of float format are the identity at the exact values, and the accumulator is the zero splat). -/
theorem body1_apply (x0 : FVec Ideal S2000x512 .f32) (x1 : FVec Ideal S512x10 .f32) (p : Fin 2000) (q : Fin 10) :
    k0_pay1 (F := Ideal) x0 x1 (ix2 p q) = ∑ κ : Fin 512, x0 (ix2 p κ) * x1 (ix2 κ q) := by
  unfold k0_pay1
  refine (matmul_zero_apply block1_plain none _ _ p q).trans ?_
  exact Finset.sum_congr rfl fun κ _ => by simp only [truncf_apply, shapeCast_self]

/-- The whole-array product at an entry. -/
theorem dense1_apply (X : FVec Ideal S100000x512 .f32) (Wt : FVec Ideal S512x10 .f32) (p : Fin 100000) (q : Fin 10) :
    dense1 X Wt (ix2 p q) = ∑ κ : Fin 512, X (ix2 p κ) * Wt (ix2 κ q) := by
  unfold dense1
  simp only [Host.dotGeneral]
  exact dotGeneral_apply rowsByW1_plain none _ X Wt p q

/-- A block of 2000 consecutive rows times the weights is those rows of the whole product: if `x0` holds rows
    r·2000 … r·2000+1999 of `X`, the body's value at local entry (p, q) is the whole product at the entry `J` it lands on. -/
theorem rows1_of_block (X : FVec Ideal S100000x512 .f32) (Wt : FVec Ideal S512x10 .f32)
    (x0 : FVec Ideal S2000x512 .f32) (x1 : FVec Ideal S512x10 .f32) (r : Nat) (hr : r < 50)
    (h0 : ∀ (p : Fin 2000) (κ : Fin 512), x0 (ix2 p κ) = X (ix2 ⟨r * 2000 + p.val, by have := p.isLt; omega⟩ κ))
    (h1 : ∀ (κ : Fin 512) (q : Fin 10), x1 (ix2 κ q) = Wt (ix2 κ q))
    (p : Fin 2000) (q : Fin 10) (J : S100000x10.Idx) (hJ0 : (J 0).val = r * 2000 + p.val) (hJ1 : (J 1).val = q.val) :
    k0_pay1 (F := Ideal) x0 x1 (ix2 p q) = dense1 X Wt J := by
  have hrow : r * 2000 + p.val < 100000 := by have := p.isLt; omega
  obtain ⟨P, Q, rfl⟩ : ∃ (P : Fin 100000) (Q : Fin 10), J = ix2 P Q := ⟨J 0, J 1, eq_ix2 J⟩
  have eP : P = ⟨r * 2000 + p.val, hrow⟩ := Fin.ext hJ0
  have eQ : Q = q := Fin.ext hJ1
  subst eP eQ
  rw [body1_apply, dense1_apply]
  exact Finset.sum_congr rfl fun κ _ => by rw [h0 p κ, h1 κ Q]

section
variable (V : (c : Dev nD) → (b : Ref sig .tc) → Buf (Elt Ideal) ((c : Thread nD τ).loc b))

/-- The printed index maps over the grid: the operand's and the result's blocks move with the point down the rows, the
    weights' block stays. -/
theorem index_facts1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt1 (t : Fin cfg0.N) : t.val < 50 := lt_of_lt_of_eq t.isLt N_0

/-- The operand's block at point t holds rows t·2000 … of the operand's array. -/
theorem operand_block1 (c : Dev nD) (t : Fin cfg0.N) (p : Fin 2000) (κ : Fin 512) :
    iblk0 V c 0 t (ix2 p κ)
      = V c main_arg0 (ix2 ⟨t.val * 2000 + p.val, by have := p.isLt; have := point_lt1 t; omega⟩ κ) := by
  obtain ⟨e0, e1, -, -, -, -⟩ := index_facts1 t
  show V c main_arg0 (((cfg0.win 0).blk t).view.emb (ix2 p κ)) = _
  refine congrArg (V c main_arg0) ?_
  funext a
  apply Fin.ext
  match a with
  | ⟨0, _⟩ => show win0_0.index t (0 : Fin 2) * 2000 + 1 * p.val = t.val * 2000 + p.val; omega
  | ⟨1, _⟩ => show win0_0.index t (1 : Fin 2) * 512 + 1 * κ.val = κ.val; omega

/-- The weights' block at every point is the whole weight matrix. -/
theorem weights_block1 (c : Dev nD) (t : Fin cfg0.N) (κ : Fin 512) (q : Fin 10) :
    iblk0 V c 1 t (ix2 κ q) = V c main_arg1 (ix2 κ q) := by
  obtain ⟨-, -, e2, e3, -, -⟩ := index_facts1 t
  show V c main_arg1 (((cfg0.win 1).blk t).view.emb (ix2 κ q)) = _
  refine congrArg (V c main_arg1) ?_
  funext a
  apply Fin.ext
  match a with
  | ⟨0, _⟩ => show win0_1.index t (0 : Fin 2) * 512 + 1 * κ.val = κ.val; omega
  | ⟨1, _⟩ => show win0_1.index t (1 : Fin 2) * 10 + 1 * q.val = q.val; omega

/-- WHAT POINT t WRITES BACK is block t of the whole product of the arrays the launch finds. -/
theorem written_back1 (c : Dev nD) (t : Fin cfg0.N) :
    (dat0 V c).flushed 2 t
      = ((cfg0.win 2).blk t).view.read (Elt Ideal) (dense1 (F := Ideal) (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x10) zero_offsets]
  obtain ⟨-, -, -, -, e4, e5⟩ := index_facts1 t
  funext j
  obtain ⟨p, q, rfl⟩ : ∃ (p : Fin 2000) (q : Fin 10), j = ix2 p q := ⟨j 0, j 1, eq_ix2 j⟩
  show k0_pay1 (F := Ideal) (iblk0 V c 0 t) (iblk0 V c 1 t) (ix2 p q)
    = dense1 (F := Ideal) (V c main_arg0) (V c main_arg1) (((cfg0.win 2).blk t).view.emb (ix2 p q))
  exact rows1_of_block (V c main_arg0) (V c main_arg1) (iblk0 V c 0 t) (iblk0 V c 1 t) t.val (point_lt1 t)
    (fun p κ => operand_block1 V c t p κ) (fun κ q => weights_block1 V c t κ q) p q (((cfg0.win 2).blk t).view.emb (ix2 p q))
    (by show win0_2.index t (0 : Fin 2) * 2000 + 1 * p.val = t.val * 2000 + p.val; omega)
    (by show win0_2.index t (1 : Fin 2) * 10 + 1 * q.val = q.val; omega)

/-- An index of the result array is in point t's block iff each coordinate is in the block's range on its axis. -/
theorem mem_block1 (t : Fin cfg0.N) (i : S100000x10.Idx) :
    i ∈ ((cfg0.win 2).blk t).view.set
      ↔ ∀ a : Fin 2, win0_2.index t a * S2000x10.size a ≤ (i a).val ∧ (i a).val < win0_2.index t a * S2000x10.size a + S2000x10.size a := by
  show i ∈ ((View.whole main_v26).slice (win0_2.rect t)).set ↔ _
  rw [View.set_slice_whole, Rect.mem_set_unit]
  exact Iff.rfl

/-- The blocks tile the result array: row i lies in the block of point i / 2000. -/
theorem blocks_cover1 (i : S100000x10.Idx) :
    ∃ t : Fin cfg0.N, (cfg0.win 2).flush t = true ∧ i ∈ ((cfg0.win 2).blk t).view.set := by
  have hi0 : (i 0).val < 100000 := idx2_lt0 i
  have hi1 : (i 1).val < 10 := idx2_lt1 i
  have ht : (i 0).val / 2000 < cfg0.N := lt_of_lt_of_eq (by omega : (i 0).val / 2000 < 50) N_0.symm
  obtain ⟨-, -, -, -, e4, e5⟩ := index_facts1 ⟨(i 0).val / 2000, ht⟩
  refine ⟨⟨(i 0).val / 2000, ht⟩, flush0_2 _, ?_⟩
  rw [mem_block1]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 10 ≤ (i 1).val
      ∧ (i 1).val < win0_2.index ⟨(i 0).val / 2000, ht⟩ (1 : Fin 2) * 10 + 10
    omega

/-- THE RESULT ARRAY after the launch is the whole product of the operand and weight arrays the launch finds. -/
theorem dense1_by_blocks (c : Dev nD) :
    (dat0 V c).arrAt 2 cfg0.N = dense1 (F := Ideal) (V c main_arg0) (V c main_arg1) :=
  (dat0 V c).arrAt_eq_of_cover 2 (dense1 (F := Ideal) (V c main_arg0) (V c main_arg1)) (fun t _ => written_back1 V c t) blocks_cover1

end

end Cert.KernelIdeal.Gcn

end
-- ==== Proof.Dense2ByBlocks.lean ====
/-
  The two dense products of the network, computed on the matrix unit a block of 2000 rows at a time, are the products
  of the whole arrays.

  Each launch runs over a grid of 50 points. At point t the operand's window holds rows 2000·t … 2000·t + 1999 of its
  array, the weights' window the whole weight matrix, and the body stores (block · weights) — a matrix-unit product into
  a zero accumulator, the operands first narrowed to bf16 (and, in the second launch, cast to their own shape), which at
  the exact values changes nothing — into the result's
  window, written back to rows 2000·t … of the result array. Entry (p, q) of that block is Σ κ x(2000·t + p, κ) · w(κ, q),
  which is entry (2000·t + p, q) of the whole product (the general lemma on plain products, used for the block's and
  for the whole array's dimension numbers). The 50 blocks tile the result array, so after the launch it holds the whole
  product.
-/
import proofs.«137775_j37495064494211_1_alg».proof.Proof.Gcn
import proofs.«137775_j37495064494211_1_alg».proof.Proof.LibPlainDot
import proofs.«137775_j37495064494211_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.PlainDot

/-! ## Launch 1: the second dense product, 2000 rows at a time -/

theorem block2_plain : IsPlain dot_S2000x10_S10x41_S2000x41_1_0_0_1_n_n := ⟨rfl, rfl, rfl, rfl, rfl, rfl⟩

theorem rowsByW2_plain : IsPlain rowsByW2 := ⟨rfl, rfl, rfl, rfl, rfl, rfl⟩

/-- The body's stored value at an entry: row p of the loaded block of rows against column q of the weights (the two
    changes of float format are the identity at the exact values, and the accumulator is the zero splat). -/
theorem body2_apply (x0 : FVec Ideal S2000x10 .f32) (x1 : FVec Ideal S10x41 .f32) (p : Fin 2000) (q : Fin 41) :
    k1_pay1 (F := Ideal) x0 x1 (ix2 p q) = ∑ κ : Fin 10, x0 (ix2 p κ) * x1 (ix2 κ q) := by
  unfold k1_pay1
  refine (matmul_zero_apply block2_plain none _ _ p q).trans ?_
  exact Finset.sum_congr rfl fun κ _ => by simp only [truncf_apply, shapeCast_self]

/-- The whole-array product at an entry. -/
theorem dense2_apply (X : FVec Ideal S100000x10 .f32) (Wt : FVec Ideal S10x41 .f32) (p : Fin 100000) (q : Fin 41) :
    dense2 X Wt (ix2 p q) = ∑ κ : Fin 10, X (ix2 p κ) * Wt (ix2 κ q) := by
  unfold dense2
  simp only [Host.dotGeneral]
  exact dotGeneral_apply rowsByW2_plain none _ X Wt p q

/-- A block of 2000 consecutive rows times the weights is those rows of the whole product: if `x0` holds rows
    r·2000 … r·2000+1999 of `X`, the body's value at local entry (p, q) is the whole product at the entry `J` it lands on. -/
theorem rows2_of_block (X : FVec Ideal S100000x10 .f32) (Wt : FVec Ideal S10x41 .f32)
    (x0 : FVec Ideal S2000x10 .f32) (x1 : FVec Ideal S10x41 .f32) (r : Nat) (hr : r < 50)
    (h0 : ∀ (p : Fin 2000) (κ : Fin 10), x0 (ix2 p κ) = X (ix2 ⟨r * 2000 + p.val, by have := p.isLt; omega⟩ κ))
    (h1 : ∀ (κ : Fin 10) (q : Fin 41), x1 (ix2 κ q) = Wt (ix2 κ q))
    (p : Fin 2000) (q : Fin 41) (J : S100000x41.Idx) (hJ0 : (J 0).val = r * 2000 + p.val) (hJ1 : (J 1).val = q.val) :
    k1_pay1 (F := Ideal) x0 x1 (ix2 p q) = dense2 X Wt J := by
  have hrow : r * 2000 + p.val < 100000 := by have := p.isLt; omega
  obtain ⟨P, Q, rfl⟩ : ∃ (P : Fin 100000) (Q : Fin 41), J = ix2 P Q := ⟨J 0, J 1, eq_ix2 J⟩
  have eP : P = ⟨r * 2000 + p.val, hrow⟩ := Fin.ext hJ0
  have eQ : Q = q := Fin.ext hJ1
  subst eP eQ
  rw [body2_apply, dense2_apply]
  exact Finset.sum_congr rfl fun κ _ => by rw [h0 p κ, h1 κ Q]

section
variable (V : (c : Dev nD) → (b : Ref sig .tc) → Buf (Elt Ideal) ((c : Thread nD τ).loc b))

/-- The printed index maps over the grid: the operand's and the result's blocks move with the point down the rows, the
    weights' block stays. -/
theorem index_facts2 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt2 (t : Fin cfg1.N) : t.val < 50 := lt_of_lt_of_eq t.isLt N_1

/-- The operand's block at point t holds rows t·2000 … of the operand's array. -/
theorem operand_block2 (c : Dev nD) (t : Fin cfg1.N) (p : Fin 2000) (κ : Fin 10) :
    iblk1 V c 0 t (ix2 p κ)
      = V c main_v43 (ix2 ⟨t.val * 2000 + p.val, by have := p.isLt; have := point_lt2 t; omega⟩ κ) := by
  obtain ⟨e0, e1, -, -, -, -⟩ := index_facts2 t
  show V c main_v43 (((cfg1.win 0).blk t).view.emb (ix2 p κ)) = _
  refine congrArg (V c main_v43) ?_
  funext a
  apply Fin.ext
  match a with
  | ⟨0, _⟩ => show win1_0.index t (0 : Fin 2) * 2000 + 1 * p.val = t.val * 2000 + p.val; omega
  | ⟨1, _⟩ => show win1_0.index t (1 : Fin 2) * 10 + 1 * κ.val = κ.val; omega

/-- The weights' block at every point is the whole weight matrix. -/
theorem weights_block2 (c : Dev nD) (t : Fin cfg1.N) (κ : Fin 10) (q : Fin 41) :
    iblk1 V c 1 t (ix2 κ q) = V c main_arg3 (ix2 κ q) := by
  obtain ⟨-, -, e2, e3, -, -⟩ := index_facts2 t
  show V c main_arg3 (((cfg1.win 1).blk t).view.emb (ix2 κ q)) = _
  refine congrArg (V c main_arg3) ?_
  funext a
  apply Fin.ext
  match a with
  | ⟨0, _⟩ => show win1_1.index t (0 : Fin 2) * 10 + 1 * κ.val = κ.val; omega
  | ⟨1, _⟩ => show win1_1.index t (1 : Fin 2) * 41 + 1 * q.val = q.val; omega

/-- WHAT POINT t WRITES BACK is block t of the whole product of the arrays the launch finds. -/
theorem written_back2 (c : Dev nD) (t : Fin cfg1.N) :
    (dat1 V c).flushed 2 t
      = ((cfg1.win 2).blk t).view.read (Elt Ideal) (dense2 (F := Ideal) (V c main_v43) (V c main_arg3)) := by
  show (cfg1.win 2).cut (grid1.coords t) ((dat1 V c).after 2 t) = _
  rw [after1_2]
  unfold out1_2
  rw [View.canon_unit_zero zero_offsets]
  simp only [View.ld_unit_zero (S := S2000x10) zero_offsets, View.ld_unit_zero (S := S10x41) zero_offsets]
  obtain ⟨-, -, -, -, e4, e5⟩ := index_facts2 t
  funext j
  obtain ⟨p, q, rfl⟩ : ∃ (p : Fin 2000) (q : Fin 41), j = ix2 p q := ⟨j 0, j 1, eq_ix2 j⟩
  show k1_pay1 (F := Ideal) (iblk1 V c 0 t) (iblk1 V c 1 t) (ix2 p q)
    = dense2 (F := Ideal) (V c main_v43) (V c main_arg3) (((cfg1.win 2).blk t).view.emb (ix2 p q))
  exact rows2_of_block (V c main_v43) (V c main_arg3) (iblk1 V c 0 t) (iblk1 V c 1 t) t.val (point_lt2 t)
    (fun p κ => operand_block2 V c t p κ) (fun κ q => weights_block2 V c t κ q) p q (((cfg1.win 2).blk t).view.emb (ix2 p q))
    (by show win1_2.index t (0 : Fin 2) * 2000 + 1 * p.val = t.val * 2000 + p.val; omega)
    (by show win1_2.index t (1 : Fin 2) * 41 + 1 * q.val = q.val; omega)

/-- An index of the result array is in point t's block iff each coordinate is in the block's range on its axis. -/
theorem mem_block2 (t : Fin cfg1.N) (i : S100000x41.Idx) :
    i ∈ ((cfg1.win 2).blk t).view.set
      ↔ ∀ a : Fin 2, win1_2.index t a * S2000x41.size a ≤ (i a).val ∧ (i a).val < win1_2.index t a * S2000x41.size a + S2000x41.size a := by
  show i ∈ ((View.whole main_v44).slice (win1_2.rect t)).set ↔ _
  rw [View.set_slice_whole, Rect.mem_set_unit]
  exact Iff.rfl

/-- The blocks tile the result array: row i lies in the block of point i / 2000. -/
theorem blocks_cover2 (i : S100000x41.Idx) :
    ∃ t : Fin cfg1.N, (cfg1.win 2).flush t = true ∧ i ∈ ((cfg1.win 2).blk t).view.set := by
  have hi0 : (i 0).val < 100000 := idx2_lt0 i
  have hi1 : (i 1).val < 41 := idx2_lt1 i
  have ht : (i 0).val / 2000 < cfg1.N := lt_of_lt_of_eq (by omega : (i 0).val / 2000 < 50) N_1.symm
  obtain ⟨-, -, -, -, e4, e5⟩ := index_facts2 ⟨(i 0).val / 2000, ht⟩
  refine ⟨⟨(i 0).val / 2000, ht⟩, flush1_2 _, ?_⟩
  rw [mem_block2]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 41 ≤ (i 1).val
      ∧ (i 1).val < win1_2.index ⟨(i 0).val / 2000, ht⟩ (1 : Fin 2) * 41 + 41
    omega

/-- THE RESULT ARRAY after the launch is the whole product of the operand and weight arrays the launch finds. -/
theorem dense2_by_blocks (c : Dev nD) :
    (dat1 V c).arrAt 2 cfg1.N = dense2 (F := Ideal) (V c main_v43) (V c main_arg3) :=
  (dat1 V c).arrAt_eq_of_cover 2 (dense2 (F := Ideal) (V c main_v43) (V c main_arg3)) (fun t _ => written_back2 V c t) blocks_cover2

end

end Cert.KernelIdeal.Gcn

end
-- ==== Proof.KernelValue.lean ====
/-
  What the kernel's program returns, at the exact values: the network over the two whole-array dense products.

  The generated frame names the buffers' contents at every boundary between a host stretch and a launch (`W0` at the
  launch of @main, … , `W9` at its return). Reading the returned buffer back through them: the last stretch makes it the
  log softmax of the second propagation of the second launch's result array; that array is the whole product of the
  hidden layer with W2 (blocks tile it); the hidden layer is made by the middle stretch from the first launch's result
  array, which is the whole product x · W1; and the first stretch makes the extended edge lists and the edge weights
  from the two index arguments. No stretch and no launch writes an argument, or an edge list or the weights once made.
-/
import proofs.«137775_j37495064494211_1_alg».proof.Proof.HostStretches
import proofs.«137775_j37495064494211_1_alg».proof.Proof.Dense1ByBlocks
import proofs.«137775_j37495064494211_1_alg».proof.Proof.Dense2ByBlocks
import proofs.«137775_j37495064494211_1_alg».proof.Proof.KernelRun

set_option maxRecDepth 16384

noncomputable section

namespace Cert.KernelIdeal.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## At the first launch's entry -/

theorem entry1_arg0 (c : Dev nD) : W3 m ρ c (Proc.devRef .tc main_arg0) = m ((c.tc : Thread nD τ).loc main_arg0) :=
  beforeDense1_keeps_main_arg0 (W0 m ρ c)
theorem entry1_arg1 (c : Dev nD) : W3 m ρ c (Proc.devRef .tc main_arg1) = m ((c.tc : Thread nD τ).loc main_arg1) :=
  beforeDense1_keeps_main_arg1 (W0 m ρ c)
theorem entry1_arg2 (c : Dev nD) : W3 m ρ c (Proc.devRef .tc main_arg2) = m ((c.tc : Thread nD τ).loc main_arg2) :=
  beforeDense1_keeps_main_arg2 (W0 m ρ c)
theorem entry1_arg3 (c : Dev nD) : W3 m ρ c (Proc.devRef .tc main_arg3) = m ((c.tc : Thread nD τ).loc main_arg3) :=
  beforeDense1_keeps_main_arg3 (W0 m ρ c)
theorem entry1_arg4 (c : Dev nD) : W3 m ρ c (Proc.devRef .tc main_arg4) = m ((c.tc : Thread nD τ).loc main_arg4) :=
  beforeDense1_keeps_main_arg4 (W0 m ρ c)
theorem entry1_src (c : Dev nD) : W3 m ρ c (Proc.devRef .tc main_v1) = withLoops (m ((c.tc : Thread nD τ).loc main_arg5)) :=
  beforeDense1_src (W0 m ρ c)
theorem entry1_dst (c : Dev nD) : W3 m ρ c (Proc.devRef .tc main_v2) = withLoops (m ((c.tc : Thread nD τ).loc main_arg6)) :=
  beforeDense1_dst (W0 m ρ c)
theorem entry1_weight (c : Dev nD) :
    W3 m ρ c (Proc.devRef .tc main_v25) = edgeWeight (F := Ideal) (withLoops (m ((c.tc : Thread nD τ).loc main_arg5))) (withLoops (m ((c.tc : Thread nD τ).loc main_arg6))) :=
  beforeDense1_weight (W0 m ρ c)

/-! ## At the first launch's exit -/

/-- The first launch's result array is x · W1. -/
theorem exit1_product (c : Dev nD) :
    W4 m ρ c (Proc.devRef .tc main_v26) = dense1 (F := Ideal) (m ((c.tc : Thread nD τ).loc main_arg0)) (m ((c.tc : Thread nD τ).loc main_arg1)) := by
  rw [← entry1_arg0 m ρ c, ← entry1_arg1 m ρ c]
  exact (W4_arr m ρ c 2).trans (dense1_by_blocks (V3 m ρ) c)

/-! ## At the second launch's entry -/

/-- The hidden layer, from the arguments. -/
theorem entry2_hidden (c : Dev nD) :
    W6 m ρ c (Proc.devRef .tc main_v43)
      = hiddenLayer (F := Ideal) (dense1 (m ((c.tc : Thread nD τ).loc main_arg0)) (m ((c.tc : Thread nD τ).loc main_arg1))) (m ((c.tc : Thread nD τ).loc main_arg2))
          (withLoops (m ((c.tc : Thread nD τ).loc main_arg5))) (withLoops (m ((c.tc : Thread nD τ).loc main_arg6)))
          (edgeWeight (withLoops (m ((c.tc : Thread nD τ).loc main_arg5))) (withLoops (m ((c.tc : Thread nD τ).loc main_arg6)))) :=
  (betweenDense_hidden (W4 m ρ c)).trans (by
    rw [exit1_product m ρ c, W4_of_ne m ρ c main_arg2 (by decide), W4_of_ne m ρ c main_v1 (by decide),
      W4_of_ne m ρ c main_v2 (by decide), W4_of_ne m ρ c main_v25 (by decide),
      entry1_arg2 m ρ c, entry1_src m ρ c, entry1_dst m ρ c, entry1_weight m ρ c])

theorem entry2_arg3 (c : Dev nD) : W6 m ρ c (Proc.devRef .tc main_arg3) = m ((c.tc : Thread nD τ).loc main_arg3) :=
  (betweenDense_keeps_main_arg3 (W4 m ρ c)).trans ((W4_of_ne m ρ c main_arg3 (by decide)).trans (entry1_arg3 m ρ c))
theorem entry2_arg4 (c : Dev nD) : W6 m ρ c (Proc.devRef .tc main_arg4) = m ((c.tc : Thread nD τ).loc main_arg4) :=
  (betweenDense_keeps_main_arg4 (W4 m ρ c)).trans ((W4_of_ne m ρ c main_arg4 (by decide)).trans (entry1_arg4 m ρ c))
theorem entry2_src (c : Dev nD) : W6 m ρ c (Proc.devRef .tc main_v1) = withLoops (m ((c.tc : Thread nD τ).loc main_arg5)) :=
  (betweenDense_keeps_main_v1 (W4 m ρ c)).trans ((W4_of_ne m ρ c main_v1 (by decide)).trans (entry1_src m ρ c))
theorem entry2_dst (c : Dev nD) : W6 m ρ c (Proc.devRef .tc main_v2) = withLoops (m ((c.tc : Thread nD τ).loc main_arg6)) :=
  (betweenDense_keeps_main_v2 (W4 m ρ c)).trans ((W4_of_ne m ρ c main_v2 (by decide)).trans (entry1_dst m ρ c))
theorem entry2_weight (c : Dev nD) :
    W6 m ρ c (Proc.devRef .tc main_v25) = edgeWeight (F := Ideal) (withLoops (m ((c.tc : Thread nD τ).loc main_arg5))) (withLoops (m ((c.tc : Thread nD τ).loc main_arg6))) :=
  (betweenDense_keeps_main_v25 (W4 m ρ c)).trans ((W4_of_ne m ρ c main_v25 (by decide)).trans (entry1_weight m ρ c))

/-! ## At the second launch's exit, and the return -/

/-- The second launch's result array is (hidden layer) · W2. -/
theorem exit2_product (c : Dev nD) :
    W7 m ρ c (Proc.devRef .tc main_v44) = dense2 (F := Ideal) (W6 m ρ c (Proc.devRef .tc main_v43)) (m ((c.tc : Thread nD τ).loc main_arg3)) := by
  rw [← entry2_arg3 m ρ c]
  exact (W7_arr m ρ c 2).trans (dense2_by_blocks (V6 m ρ) c)

/-- THE RETURNED BUFFER at the last boundary is the network of the arguments. -/
theorem returned (c : Dev nD) :
    W9 m ρ c (Proc.devRef .tc main_v61)
      = network (F := Ideal) dense1 dense2 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) :=
  (afterDense2_result (W7 m ρ c)).trans (by
    rw [exit2_product m ρ c, entry2_hidden m ρ c, W7_of_ne m ρ c main_arg4 (by decide), W7_of_ne m ρ c main_v1 (by decide),
      W7_of_ne m ρ c main_v2 (by decide), W7_of_ne m ρ c main_v25 (by decide),
      entry2_arg4 m ρ c, entry2_src m ρ c, entry2_dst m ρ c, entry2_weight m ρ c]
    rfl)

/-- THE KERNEL'S RUN with its value: every weakly fair execution terminates, the returned buffer holds the network of
    the arguments and the arguments are unchanged. -/
theorem kernel_run : θ_run defs (onTc (τ := τ) (main (F := Ideal))) ⟨m, fun _ => 0, ρ⟩ (fun r => ∀ c : Dev nD,
      r.2.mem ((c.tc : Thread nD τ).loc main_v61)
        = network (F := Ideal) dense1 dense2 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (returned m ρ c), (h c).2⟩) (run_result m ρ)

end Cert.KernelIdeal.Gcn

end
-- ==== Proof.ReferenceStretches.lean ====
/-
  The reference program's run, read as the graph convolution's functions.

  The reference is one line of 130 host operations. It is read here in five stretches, each at an ARBITRARY contents
  `W` of the buffers on entry: the first layer's edge lists, edge weights and dense product (operations 0–36); the
  hidden layer (37–58); the second layer's edge lists and weights — the reference computes them a second time, from
  the same two index arguments — and its dense product (59–95); the second propagation and bias (96–114); and the
  called log softmax (115–129). What a buffer holds after a stretch is the stretch's operations composed, applied to
  what the buffers it reads held on entry; a buffer a stretch does not write is unchanged. Put together, the returned
  buffer holds the network of the seven arguments, the two dense products being the host's `dot_general`.
-/
import proofs.«137775_j37495064494211_1_alg».proof.Proof.Gcn
import proofs.«137775_j37495064494211_1_alg».proof.Proof.LibHostLine
import proofs.«137775_j37495064494211_1_alg».proof.Proof.ReferenceRun

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value
open Cert.KernelIdeal.Gcn Cert.Lib.HostLine

variable {F : FTy → Type} [FloatOps F]

/-! ## The line cut into its stretches -/

/-- Operations 0–36: the extended edge lists, the edge weights, the first dense product. -/
abbrev layer1Ops : List (HloOp τ sig (Elt F)) := ops.take 37
abbrev rest1 : List (HloOp τ sig (Elt F)) := ops.drop 37
/-- Operations 37–58: the first propagation, its bias and the called relu. -/
abbrev hiddenOps : List (HloOp τ sig (Elt F)) := rest1.take 22
abbrev rest2 : List (HloOp τ sig (Elt F)) := rest1.drop 22
/-- Operations 59–95: the edge lists and weights once more, the second dense product. -/
abbrev layer2Ops : List (HloOp τ sig (Elt F)) := rest2.take 37
abbrev rest3 : List (HloOp τ sig (Elt F)) := rest2.drop 37
/-- Operations 96–114: the second propagation and its bias. -/
abbrev logitOps : List (HloOp τ sig (Elt F)) := rest3.take 19
/-- Operations 115–129: the called log softmax. -/
abbrev softmaxOps : List (HloOp τ sig (Elt F)) := rest3.drop 19

/-- The whole line is its five stretches in turn. -/
theorem ops_in_stretches (W : Valuation τ sig (Elt F)) :
    StableHlo.after ops W
      = StableHlo.after softmaxOps (StableHlo.after logitOps (StableHlo.after layer2Ops
          (StableHlo.after hiddenOps (StableHlo.after layer1Ops W)))) :=
  (after_split 37 ops W).trans ((after_split 22 rest1 _).trans ((after_split 37 rest2 _).trans (after_split 19 rest3 _)))

/-! ## The first layer up to its dense product -/

set_option maxHeartbeats 4000000 in
theorem layer1_src (W : Valuation τ sig (Elt F)) :
    StableHlo.after layer1Ops W (Proc.devRef .tc main_v1)
      = withLoops (W (Proc.devRef .tc main_arg5)) := by
  simp only [layer1Ops, ops, List.take, List.drop]
  after_results_simp
  rfl

set_option maxHeartbeats 4000000 in
theorem layer1_dst (W : Valuation τ sig (Elt F)) :
    StableHlo.after layer1Ops W (Proc.devRef .tc main_v2)
      = withLoops (W (Proc.devRef .tc main_arg6)) := by
  simp only [layer1Ops, ops, List.take, List.drop]
  after_results_simp
  rfl

set_option maxHeartbeats 4000000 in
theorem layer1_weight (W : Valuation τ sig (Elt F)) :
    StableHlo.after layer1Ops W (Proc.devRef .tc main_v25)
      = edgeWeight (withLoops (W (Proc.devRef .tc main_arg5))) (withLoops (W (Proc.devRef .tc main_arg6))) := by
  simp only [layer1Ops, ops, List.take, List.drop]
  after_results_simp
  simp only [ofBuf_toBuf]
  rfl

set_option maxHeartbeats 4000000 in
theorem layer1_product (W : Valuation τ sig (Elt F)) :
    StableHlo.after layer1Ops W (Proc.devRef .tc main_v26)
      = dense1 (W (Proc.devRef .tc main_arg0)) (W (Proc.devRef .tc main_arg1)) := by
  simp only [layer1Ops, ops, List.take, List.drop]
  after_results_simp
  rfl

set_option maxHeartbeats 4000000 in
theorem layer1_keeps_main_arg2 (W : Valuation τ sig (Elt F)) :
    StableHlo.after layer1Ops W (Proc.devRef .tc main_arg2) = W (Proc.devRef .tc main_arg2) := by
  simp only [layer1Ops, ops, List.take, List.drop]
  after_results

set_option maxHeartbeats 4000000 in
theorem layer1_keeps_main_arg3 (W : Valuation τ sig (Elt F)) :
    StableHlo.after layer1Ops W (Proc.devRef .tc main_arg3) = W (Proc.devRef .tc main_arg3) := by
  simp only [layer1Ops, ops, List.take, List.drop]
  after_results

set_option maxHeartbeats 4000000 in
theorem layer1_keeps_main_arg4 (W : Valuation τ sig (Elt F)) :
    StableHlo.after layer1Ops W (Proc.devRef .tc main_arg4) = W (Proc.devRef .tc main_arg4) := by
  simp only [layer1Ops, ops, List.take, List.drop]
  after_results

set_option maxHeartbeats 4000000 in
theorem layer1_keeps_main_arg5 (W : Valuation τ sig (Elt F)) :
    StableHlo.after layer1Ops W (Proc.devRef .tc main_arg5) = W (Proc.devRef .tc main_arg5) := by
  simp only [layer1Ops, ops, List.take, List.drop]
  after_results

set_option maxHeartbeats 4000000 in
theorem layer1_keeps_main_arg6 (W : Valuation τ sig (Elt F)) :
    StableHlo.after layer1Ops W (Proc.devRef .tc main_arg6) = W (Proc.devRef .tc main_arg6) := by
  simp only [layer1Ops, ops, List.take, List.drop]
  after_results

/-! ## The hidden layer -/

set_option maxHeartbeats 4000000 in
theorem hidden_value (W : Valuation τ sig (Elt F)) :
    StableHlo.after hiddenOps W (Proc.devRef .tc main_v43)
      = hiddenLayer (W (Proc.devRef .tc main_v26)) (W (Proc.devRef .tc main_arg2)) (W (Proc.devRef .tc main_v1)) (W (Proc.devRef .tc main_v2)) (W (Proc.devRef .tc main_v25)) := by
  simp only [hiddenOps, rest1, ops, List.take, List.drop]
  after_results_simp
  simp only [ofBuf_toBuf]
  rfl

set_option maxHeartbeats 4000000 in
theorem hidden_keeps_main_arg3 (W : Valuation τ sig (Elt F)) :
    StableHlo.after hiddenOps W (Proc.devRef .tc main_arg3) = W (Proc.devRef .tc main_arg3) := by
  simp only [hiddenOps, rest1, ops, List.take, List.drop]
  after_results

set_option maxHeartbeats 4000000 in
theorem hidden_keeps_main_arg4 (W : Valuation τ sig (Elt F)) :
    StableHlo.after hiddenOps W (Proc.devRef .tc main_arg4) = W (Proc.devRef .tc main_arg4) := by
  simp only [hiddenOps, rest1, ops, List.take, List.drop]
  after_results

set_option maxHeartbeats 4000000 in
theorem hidden_keeps_main_arg5 (W : Valuation τ sig (Elt F)) :
    StableHlo.after hiddenOps W (Proc.devRef .tc main_arg5) = W (Proc.devRef .tc main_arg5) := by
  simp only [hiddenOps, rest1, ops, List.take, List.drop]
  after_results

set_option maxHeartbeats 4000000 in
theorem hidden_keeps_main_arg6 (W : Valuation τ sig (Elt F)) :
    StableHlo.after hiddenOps W (Proc.devRef .tc main_arg6) = W (Proc.devRef .tc main_arg6) := by
  simp only [hiddenOps, rest1, ops, List.take, List.drop]
  after_results

/-! ## The second layer up to its dense product -/

set_option maxHeartbeats 4000000 in
theorem layer2_src (W : Valuation τ sig (Elt F)) :
    StableHlo.after layer2Ops W (Proc.devRef .tc main_v45)
      = withLoops (W (Proc.devRef .tc main_arg5)) := by
  simp only [layer2Ops, rest2, rest1, ops, List.take, List.drop]
  after_results_simp
  rfl

set_option maxHeartbeats 4000000 in
theorem layer2_dst (W : Valuation τ sig (Elt F)) :
    StableHlo.after layer2Ops W (Proc.devRef .tc main_v46)
      = withLoops (W (Proc.devRef .tc main_arg6)) := by
  simp only [layer2Ops, rest2, rest1, ops, List.take, List.drop]
  after_results_simp
  rfl

set_option maxHeartbeats 4000000 in
theorem layer2_weight (W : Valuation τ sig (Elt F)) :
    StableHlo.after layer2Ops W (Proc.devRef .tc main_v69)
      = edgeWeight (withLoops (W (Proc.devRef .tc main_arg5))) (withLoops (W (Proc.devRef .tc main_arg6))) := by
  simp only [layer2Ops, rest2, rest1, ops, List.take, List.drop]
  after_results_simp
  simp only [ofBuf_toBuf]
  rfl

set_option maxHeartbeats 4000000 in
theorem layer2_product (W : Valuation τ sig (Elt F)) :
    StableHlo.after layer2Ops W (Proc.devRef .tc main_v70)
      = dense2 (W (Proc.devRef .tc main_v43)) (W (Proc.devRef .tc main_arg3)) := by
  simp only [layer2Ops, rest2, rest1, ops, List.take, List.drop]
  after_results_simp
  rfl

set_option maxHeartbeats 4000000 in
theorem layer2_keeps_main_arg4 (W : Valuation τ sig (Elt F)) :
    StableHlo.after layer2Ops W (Proc.devRef .tc main_arg4) = W (Proc.devRef .tc main_arg4) := by
  simp only [layer2Ops, rest2, rest1, ops, List.take, List.drop]
  after_results

/-! ## The second propagation, and the log softmax -/

set_option maxHeartbeats 4000000 in
theorem logits_value (W : Valuation τ sig (Elt F)) :
    StableHlo.after logitOps W (Proc.devRef .tc main_v86)
      = logits (W (Proc.devRef .tc main_v70)) (W (Proc.devRef .tc main_arg4)) (W (Proc.devRef .tc main_v45)) (W (Proc.devRef .tc main_v46)) (W (Proc.devRef .tc main_v69)) := by
  simp only [logitOps, rest3, rest2, rest1, ops, List.take, List.drop]
  after_results_simp
  rfl

set_option maxHeartbeats 4000000 in
theorem softmax_value (W : Valuation τ sig (Elt F)) :
    StableHlo.after softmaxOps W (Proc.devRef .tc main_v87)
      = logSoftmax (W (Proc.devRef .tc main_v86)) := by
  simp only [softmaxOps, rest3, rest2, rest1, ops, List.take, List.drop]
  after_results_simp
  simp only [ofBuf_toBuf]
  rfl

/-! ## The whole line -/

/-- THE RETURNED BUFFER after the whole line is the network of the seven arguments. -/
theorem returned (W : Valuation τ sig (Elt F)) :
    StableHlo.after ops W (Proc.devRef .tc main_v87)
      = network (F := F) dense1 dense2 (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  rw [ops_in_stretches, softmax_value, logits_value, layer2_product, layer2_keeps_main_arg4, layer2_src, layer2_dst, layer2_weight,
    hidden_value, hidden_keeps_main_arg3, hidden_keeps_main_arg4, hidden_keeps_main_arg5, hidden_keeps_main_arg6,
    layer1_product, layer1_src, layer1_dst, layer1_weight, layer1_keeps_main_arg2, layer1_keeps_main_arg3,
    layer1_keeps_main_arg4, layer1_keeps_main_arg5, layer1_keeps_main_arg6]
  rfl

/-! ## No operation writes an argument -/

set_option maxHeartbeats 8000000 in
theorem ops_keep_main_arg0 (W : Valuation τ sig (Elt F)) :
    StableHlo.after ops W (Proc.devRef .tc main_arg0) = W (Proc.devRef .tc main_arg0) := by
  after_results

set_option maxHeartbeats 8000000 in
theorem ops_keep_main_arg1 (W : Valuation τ sig (Elt F)) :
    StableHlo.after ops W (Proc.devRef .tc main_arg1) = W (Proc.devRef .tc main_arg1) := by
  after_results

set_option maxHeartbeats 8000000 in
theorem ops_keep_main_arg2 (W : Valuation τ sig (Elt F)) :
    StableHlo.after ops W (Proc.devRef .tc main_arg2) = W (Proc.devRef .tc main_arg2) := by
  after_results

set_option maxHeartbeats 8000000 in
theorem ops_keep_main_arg3 (W : Valuation τ sig (Elt F)) :
    StableHlo.after ops W (Proc.devRef .tc main_arg3) = W (Proc.devRef .tc main_arg3) := by
  after_results

set_option maxHeartbeats 8000000 in
theorem ops_keep_main_arg4 (W : Valuation τ sig (Elt F)) :
    StableHlo.after ops W (Proc.devRef .tc main_arg4) = W (Proc.devRef .tc main_arg4) := by
  after_results

set_option maxHeartbeats 8000000 in
theorem ops_keep_main_arg5 (W : Valuation τ sig (Elt F)) :
    StableHlo.after ops W (Proc.devRef .tc main_arg5) = W (Proc.devRef .tc main_arg5) := by
  after_results

set_option maxHeartbeats 8000000 in
theorem ops_keep_main_arg6 (W : Valuation τ sig (Elt F)) :
    StableHlo.after ops W (Proc.devRef .tc main_arg6) = W (Proc.devRef .tc main_arg6) := by
  after_results

end Cert.ReferenceIdeal.RefValue

end
-- ==== Proof.ReferenceIsGcn.lean ====
/-
  What the reference program returns: the network over the host's two dense products.

  The reference's @main is the line `ops` run in order, so from any memory with zero counters every weakly fair
  execution terminates and every buffer ends at the line's fold from the launch memory (the library's statement for a
  program of host operations only). Read at the returned buffer that fold is the network of the seven arguments, and
  read at an argument's buffer it is the argument: no operation writes one.
-/
import proofs.«137775_j37495064494211_1_alg».proof.Proof.ReferenceStretches

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value
open Cert.KernelIdeal.Gcn

variable {F : FTy → Type} [FloatOps F]

/-- THE REFERENCE'S RUN with its value: every weakly fair execution terminates, the returned buffer holds the network of
    the arguments and the arguments are unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = network (F := F) dense1 dense2 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v87).trans (returned _),
      (h c main_arg0).trans (ops_keep_main_arg0 _),
      (h c main_arg1).trans (ops_keep_main_arg1 _),
      (h c main_arg2).trans (ops_keep_main_arg2 _),
      (h c main_arg3).trans (ops_keep_main_arg3 _),
      (h c main_arg4).trans (ops_keep_main_arg4 _),
      (h c main_arg5).trans (ops_keep_main_arg5 _),
      (h c main_arg6).trans (ops_keep_main_arg6 _)⟩)
    (run_seq scopedRefs_eq scopedSems_eq defs main (fun _ => ops) main_eq (fun _ => ops_sub) m ρ)

end Cert.ReferenceIdeal.RefValue

end
-- ==== Proof.lean ====
/-
  A two-layer graph convolution with its two dense products on the matrix unit, against the same network in plain jnp.

  Both programs extend the edge list by a self loop per node, weight edge e by dinv[src e] · dinv[dst e] (dinv the
  inverse square root of the in-degree where it is positive, else 0), and compute
      logSoftmax ( propagate (relu (propagate (x · W1) + b1) · W2) + b2 ),
  where a propagation gathers row src e, scales it by the edge's weight and adds it into row dst e. The kernel's program
  computes x · W1 and h · W2 in two launches over 50 blocks of 2000 rows, each block a matrix-unit product of bf16-narrowed
  operands into a zero accumulator; the reference computes them as host dot_generals, and recomputes the edge weights for
  the second layer. Over the extended reals narrowing is the identity and both kinds of product are, entry by entry, the
  same sum over the inner index, so each launch's result array is the whole product; everything else is the same
  operations on the same values. Hence both programs return ONE function of the seven arguments (`Gcn.network` over
  `Gcn.dense1`, `Gcn.dense2`), with no use of the inputs' finiteness.

  The three frames: the kernel's two are the generated frame certificates; the reference's is its run with the value
  dropped. The idealization rewrote nothing, so `preserves` is `True`.
-/
import proofs.«137775_j37495064494211_1_alg».proof.Defs
import proofs.«137775_j37495064494211_1_alg».proof.Proof.Gen.Kernel
import proofs.«137775_j37495064494211_1_alg».proof.Proof.Gen.Kernel.Skeleton
import proofs.«137775_j37495064494211_1_alg».proof.Proof.Gen.Kernel.Launch
import proofs.«137775_j37495064494211_1_alg».proof.Proof.Gen.Kernel.Points
import proofs.«137775_j37495064494211_1_alg».proof.Proof.Gen.Kernel.Frame
import proofs.«137775_j37495064494211_1_alg».proof.Proof.Gen.KernelIdeal
import proofs.«137775_j37495064494211_1_alg».proof.Proof.Gen.KernelIdeal.Skeleton
import proofs.«137775_j37495064494211_1_alg».proof.Proof.Gen.KernelIdeal.Launch
import proofs.«137775_j37495064494211_1_alg».proof.Proof.Gen.KernelIdeal.Points
import proofs.«137775_j37495064494211_1_alg».proof.Proof.Gen.KernelIdeal.Frame
import proofs.«137775_j37495064494211_1_alg».proof.Proof.Gen.ReferenceIdeal
import proofs.«137775_j37495064494211_1_alg».proof.Proof.Gen.Pre_finite_inputs
import proofs.«137775_j37495064494211_1_alg».proof.Proof.KernelValue
import proofs.«137775_j37495064494211_1_alg».proof.Proof.ReferenceIsGcn
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the value dropped. -/
theorem frame_reference : Cert.frame_ReferenceIdeal := fun m ρ _ =>
  (θ_run Cert.ReferenceIdeal.defs _ _).mono (fun _ h c => (h c).2)
    (Cert.ReferenceIdeal.RefValue.reference_run (F := Ideal) m ρ)

/-- From memories that agree on the arguments both programs end with the network of those arguments. -/
theorem algebraic : Cert.algebraic_KernelIdeal_ReferenceIdeal := by
  intro m ρ m' ρ' _ hagree
  refine ⟨_, Cert.KernelIdeal.Gcn.kernel_run m ρ, ?_⟩
  refine (θ_run Cert.ReferenceIdeal.defs _ _).mono (fun _ h c => ⟨(h c).1.trans ?_, (h c).2⟩)
    (Cert.ReferenceIdeal.RefValue.reference_run (F := Ideal) m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
